-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048 : Shape := ⟨1, ![2048]⟩
abbrev S64x2048 : Shape := ⟨2, ![64, 2048]⟩
abbrev S64 : Shape := ⟨1, ![64]⟩
abbrev S2048x64 : Shape := ⟨2, ![2048, 64]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048 : S_.BroadcastsInDim S2048 (![] : Fin 0 → Fin S2048.rank)
  reducesTo_S2048_S_d0 : S2048.ReducesTo [0] S_
  bcast_S_S64x2048 : S_.BroadcastsInDim S64x2048 (![] : Fin 0 → Fin S64x2048.rank)
  reducesTo_S64x2048_S_d0_1 : S64x2048.ReducesTo [0, 1] S_
  bcast_S_S64 : S_.BroadcastsInDim S64 (![] : Fin 0 → Fin S64.rank)
  reducesTo_S64_S_d0 : S64.ReducesTo [0] S_
  bcast_S_S2048x64 : S_.BroadcastsInDim S2048x64 (![] : Fin 0 → Fin S2048x64.rank)
  reducesTo_S2048x64_S_d0_1 : S2048x64.ReducesTo [0, 1] S_

variable [Facts]

def fn_part1 {F : FTy → Type} [FloatOps F] (main_arg4 : FVec F S64 .f32) (main_arg5 : FVec F S2048x64 .f32) (main_arg6 : FVec F S2048 .f32) (main_v13 : IVec S_ 1) (main_v16 : IVec S64x2048 1) : IVec S_ 1 :=
  let main_c_5 : IVec S_ 1 := constantI S_ 1 1#1
  let main_v17 : IVec S_ 1 := (fun x v => Host.reduce IntOp.andi x v reducesTo_S64x2048_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S2048x64 .f32 := Host.absf main_arg5
  let main_cst_8 : FVec F S_ .f32 := constant S_ .f32 0x7F800000#32
  let main_v25 : FVec F S2048x64 .f32 := broadcastInDim S2048x64 ![] bcast_S_S2048x64 main_cst_8
  let main_v26 : IVec S2048x64 1 := cmpf .olt main_v24 main_v25
  let main_c_9 : IVec S_ 1 := constantI S_ 1 1#1
  let main_v27 : IVec S_ 1 := (fun x v => Host.reduce IntOp.andi x v reducesTo_S2048x64_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : FVec F S4x4096x2048 .f32) (main_arg1 : FVec F S2048 .f32) (main_arg2 : FVec F S2048 .f32) (main_arg3 : FVec F S64x2048 .f32) (main_arg4 : FVec F S64 .f32) (main_arg5 : FVec F S2048x64 .f32) (main_arg6 : FVec F S2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S64x2048 .f32 := Host.absf main_arg3
  let main_cst_4 : FVec F S_ .f32 := constant S_ .f32 0x7F800000#32
  let main_v15 : FVec F S64x2048 .f32 := broadcastInDim S64x2048 ![] bcast_S_S64x2048 main_cst_4
  let main_v16 : IVec S64x2048 1 := cmpf .olt main_v14 main_v15
  fn_part1 (F := F) main_arg4 main_arg5 main_arg6 main_v13 main_v16
-- ==== Kernel.lean ====
abbrev S4x4096x2048 : Shape := ⟨3, ![4, 4096, 2048]⟩
abbrev S2048 : Shape := ⟨1, ![2048]⟩
abbrev S64x2048 : Shape := ⟨2, ![64, 2048]⟩
abbrev S64 : Shape := ⟨1, ![64]⟩
abbrev S2048x64 : Shape := ⟨2, ![2048, 64]⟩
abbrev S16384x2048 : Shape := ⟨2, ![16384, 2048]⟩
abbrev S1x2048 : Shape := ⟨2, ![1, 2048]⟩
abbrev S1x64 : Shape := ⟨2, ![1, 64]⟩
abbrev S512x2048 : Shape := ⟨2, ![512, 2048]⟩
abbrev S512 : Shape := ⟨1, ![512]⟩
abbrev S512x1 : Shape := ⟨2, ![512, 1]⟩
abbrev S512x64 : Shape := ⟨2, ![512, 64]⟩

abbrev nBuf : Space → Nat
  | .hbm => 18
  | .vmem => 10
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048, .f32⟩
  | .hbm, ⟨3, _⟩ => ⟨S64x2048, .f32⟩
  | .hbm, ⟨4, _⟩ => ⟨S64, .f32⟩
  | .hbm, ⟨5, _⟩ => ⟨S2048x64, .f32⟩
  | .hbm, ⟨6, _⟩ => ⟨S2048, .f32⟩
  | .hbm, ⟨7, _⟩ => ⟨S16384x2048, .f32⟩
  | .hbm, ⟨8, _⟩ => ⟨S1x2048, .f32⟩
  | .hbm, ⟨9, _⟩ => ⟨S1x2048, .f32⟩
  | .hbm, ⟨10, _⟩ => ⟨S2048x64, .f32⟩
  | .hbm, ⟨11, _⟩ => ⟨S2048x64, .bf16⟩
  | .hbm, ⟨12, _⟩ => ⟨S1x64, .f32⟩
  | .hbm, ⟨13, _⟩ => ⟨S64x2048, .f32⟩
  | .hbm, ⟨14, _⟩ => ⟨S64x2048, .bf16⟩
  | .hbm, ⟨15, _⟩ => ⟨S1x2048, .f32⟩
  | .hbm, ⟨16, _⟩ => ⟨S16384x2048, .f32⟩
  | .hbm, ⟨17, _⟩ => ⟨S4x4096x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S2048x64, .bf16⟩
  | .local _ .vmem, ⟨5, _⟩ => ⟨S1x64, .f32⟩
  | .local _ .vmem, ⟨6, _⟩ => ⟨S64x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S4x4096x2048_S16384x2048 : S4x4096x2048.ShapeCasts S16384x2048
  shapeCasts_S2048_S1x2048 : S2048.ShapeCasts S1x2048
  transposes_S64x2048_S2048x64_1_0 : S64x2048.Transposes [1, 0] S2048x64
  bitsLt_bf16_f32 : FTy.bits .bf16 < FTy.bits .f32
  shapeCasts_S64_S1x64 : S64.ShapeCasts S1x64
  transposes_S2048x64_S64x2048_1_0 : S2048x64.Transposes [1, 0] S64x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  reduces_S512x2048_S512 : S512x2048.Reduces [1] S512
  shapeCasts_S512_S512x1 : S512.ShapeCasts S512x1
  broadcasts_S512x1_S512x2048 : S512x1.Broadcasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  shapeCasts_S16384x2048_S4x4096x2048 : S16384x2048.ShapeCasts S4x4096x2048
  dot_S512x2048_S2048x64_S512x64_1_0_0_1_n_n_wf : DotDims.WF S512x2048 S2048x64 S512x64 [1] [0] [0] [1] [] []
  dot_S512x64_S64x2048_S512x2048_1_0_0_1_n_n_wf : DotDims.WF S512x64 S64x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S2048x64.size a
  hwx0_3 : ∀ i : grid0.Coords, EltTy.bits .bf16 = 32 ∨ (Rect.block (s := S2048x64) S2048x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x2048.size a ≤ S64x2048.size a
  hwx0_5 : ∀ i : grid0.Coords, EltTy.bits .bf16 = 32 ∨ (Rect.block (s := S64x2048) S64x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x2048.size a ≤ S16384x2048.size a
  hwx0_7 : ∀ i : grid0.Coords, EltTy.bits .f32 = 32 ∨ (Rect.block (s := S16384x2048) S512x2048.size (cc0_transform_7 i) (hinb0_7 i)).WholeWords (EltTy.packing .f32)

variable [Facts₀]

def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S64x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S512x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S2048 : Shape := ⟨1, ![2048]⟩
abbrev S64x2048 : Shape := ⟨2, ![64, 2048]⟩
abbrev S64 : Shape := ⟨1, ![64]⟩
abbrev S2048x64 : Shape := ⟨2, ![2048, 64]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x64 : Shape := ⟨3, ![4, 4096, 64]⟩
abbrev S1x1x64 : Shape := ⟨3, ![1, 1, 64]⟩

abbrev nBuf : Space → Nat
  | .hbm => 48
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048, .f32⟩
  | .hbm, ⟨3, _⟩ => ⟨S64x2048, .f32⟩
  | .hbm, ⟨4, _⟩ => ⟨S64, .f32⟩
  | .hbm, ⟨5, _⟩ => ⟨S2048x64, .f32⟩
  | .hbm, ⟨6, _⟩ => ⟨S2048, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x2048, .f32⟩
  | .hbm, ⟨14, _⟩ => ⟨S4x4096x2048, .f32⟩
  | .hbm, ⟨15, _⟩ => ⟨S4x4096x2048, .f32⟩
  | .hbm, ⟨16, _⟩ => ⟨S_, .f32⟩
  | .hbm, ⟨17, _⟩ => ⟨S4x4096, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S4x4096x2048, .f32⟩
  | .hbm, ⟨23, _⟩ => ⟨S4x4096x2048, .f32⟩
  | .hbm, ⟨24, _⟩ => ⟨S_, .f32⟩
  | .hbm, ⟨25, _⟩ => ⟨S4x4096x1, .f32⟩
  | .hbm, ⟨26, _⟩ => ⟨S4x4096x1, .f32⟩
  | .hbm, ⟨27, _⟩ => ⟨S4x4096x1, .f32⟩
  | .hbm, ⟨28, _⟩ => ⟨S4x4096x2048, .f32⟩
  | .hbm, ⟨29, _⟩ => ⟨S4x4096x2048, .f32⟩
  | .hbm, ⟨30, _⟩ => ⟨S1x1x2048, .f32⟩
  | .hbm, ⟨31, _⟩ => ⟨S4x4096x2048, .f32⟩
  | .hbm, ⟨32, _⟩ => ⟨S4x4096x2048, .f32⟩
  | .hbm, ⟨33, _⟩ => ⟨S1x1x2048, .f32⟩
  | .hbm, ⟨34, _⟩ => ⟨S4x4096x2048, .f32⟩
  | .hbm, ⟨35, _⟩ => ⟨S4x4096x2048, .f32⟩
  | .hbm, ⟨36, _⟩ => ⟨S4x4096x64, .f32⟩
  | .hbm, ⟨37, _⟩ => ⟨S1x1x64, .f32⟩
  | .hbm, ⟨38, _⟩ => ⟨S4x4096x64, .f32⟩
  | .hbm, ⟨39, _⟩ => ⟨S4x4096x64, .f32⟩
  | .hbm, ⟨40, _⟩ => ⟨S_, .f32⟩
  | .hbm, ⟨41, _⟩ => ⟨S4x4096x64, .f32⟩
  | .hbm, ⟨42, _⟩ => ⟨S4x4096x64, .f32⟩
  | .hbm, ⟨43, _⟩ => ⟨S4x4096x2048, .f32⟩
  | .hbm, ⟨44, _⟩ => ⟨S1x1x2048, .f32⟩
  | .hbm, ⟨45, _⟩ => ⟨S4x4096x2048, .f32⟩
  | .hbm, ⟨46, _⟩ => ⟨S4x4096x2048, .f32⟩
  | .hbm, ⟨47, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call0_cst : Ref sig .tc := ⟨.hbm, 40, rfl⟩
abbrev main_call0_v0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]

class Facts₀ : Prop where
  reducesTo_S4x4096x2048_S4x4096_d2 : S4x4096x2048.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x2048_0_1_2 : S4x4096x1.BroadcastsInDim S4x4096x2048 (![0, 1, 2] : Fin 3 → Fin S4x4096x2048.rank)
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  bcast_S64_S1x1x64_2 : S64.BroadcastsInDim S1x1x64 (![2] : Fin 1 → Fin S1x1x64.rank)
  bcast_S1x1x64_S4x4096x64_0_1_2 : S1x1x64.BroadcastsInDim S4x4096x64 (![0, 1, 2] : Fin 3 → Fin S4x4096x64.rank)
  bcast_S_S4x4096x64 : S_.BroadcastsInDim S4x4096x64 (![] : Fin 0 → Fin S4x4096x64.rank)
  dot_S4x4096x2048_S64x2048_S4x4096x64_2_1_01_0_n_n_wf : DotDims.WF S4x4096x2048 S64x2048 S4x4096x64 [2] [1] [0, 1] [0] [] []
  dot_S4x4096x64_S2048x64_S4x4096x2048_2_1_01_0_n_n_wf : DotDims.WF S4x4096x64 S2048x64 S4x4096x2048 [2] [1] [0, 1] [0] [] []

variable [Facts₀]

def dot_S4x4096x2048_S64x2048_S4x4096x64_2_1_01_0_n_n : DotDims S4x4096x2048 S64x2048 S4x4096x64 where
  lhsContracting := [2]
  rhsContracting := [1]
  lhsNonContracting := [0, 1]
  rhsNonContracting := [0]
  lhsBatch := []
  rhsBatch := []
  wf := dot_S4x4096x2048_S64x2048_S4x4096x64_2_1_01_0_n_n_wf
def dot_S4x4096x64_S2048x64_S4x4096x2048_2_1_01_0_n_n : DotDims S4x4096x64 S2048x64 S4x4096x2048 where
  lhsContracting := [2]
  rhsContracting := [1]
  lhsNonContracting := [0, 1]
  rhsNonContracting := [0]
  lhsBatch := []
  rhsBatch := []
  wf := dot_S4x4096x64_S2048x64_S4x4096x2048_2_1_01_0_n_n_wf

class Facts : Prop extends Facts₀ where

variable [Facts]
-- ==== Proof.RowSpec.lean ====
/-
  The function both programs compute, one row at a time, on the extended reals.

  A row `r` of 2048 entries is normalised (its mean and its variance are sums over the row divided by the
  literal 2048, the variance shifted by the literal epsilon before the reciprocal square root), scaled and
  shifted entry by entry by `lw` and `lb`, sent through a 2048 → 64 affine map `dw`, `db`, clipped
  below at the zero literal, sent back through a 64 → 2048 affine map `uw`, `ub`, and added to the row it
  started from. The three float literals are kept as the bit patterns both programs print; nothing here
  evaluates them.
-/
import Idealize.ShloMosaic.PureOps.Ideal
import Idealize.ShloMosaic.Lib.ValueIdx

noncomputable section

namespace Cert.RowSpec

open Idealize.ShloMosaic Idealize.ShloMosaic.ValueIdx

/-- The literal 2048.0 both means divide by. -/
abbrev width : EReal := Ideal.ofBits .f32 0x45000000#32
/-- The literal added to the variance. -/
abbrev eps : EReal := Ideal.ofBits .f32 0x3727C5AC#32
/-- The literal the hidden layer is clipped at. -/
abbrev floor0 : EReal := Ideal.ofBits .f32 0x00000000#32

/-- The row's mean. -/
def mean (r : Fin 2048 → EReal) : EReal := Ideal.div (∑ k : Fin 2048, r k) width

/-- The row's variance about its mean. -/
def var (r : Fin 2048 → EReal) : EReal :=
  Ideal.div (∑ k : Fin 2048, (r k - mean r) * (r k - mean r)) width

/-- The normalised row, scaled by `lw` and shifted by `lb`. -/
def normed (r lw lb : Fin 2048 → EReal) (k : Fin 2048) : EReal :=
  (r k - mean r) * Ideal.rsqrt (var r + eps) * lw k + lb k

/-- The hidden layer: the normalised row through `dw`, `db`, clipped below. -/
def hidden (r lw lb : Fin 2048 → EReal) (dw : Fin 64 → Fin 2048 → EReal) (db : Fin 64 → EReal) (a : Fin 64) : EReal :=
  max ((∑ k : Fin 2048, normed r lw lb k * dw a k) + db a) floor0

/-- The result row: the hidden layer through `uw`, `ub`, added to the row itself. -/
def adapter (r lw lb : Fin 2048 → EReal) (dw : Fin 64 → Fin 2048 → EReal) (db : Fin 64 → EReal)
    (uw : Fin 2048 → Fin 64 → EReal) (ub : Fin 2048 → EReal) (d : Fin 2048) : EReal :=
  r d + ((∑ a : Fin 64, hidden r lw lb dw db a * uw d a) + ub d)

/-- The result row depends on its seven arguments only through their entries. -/
theorem adapter_congr {r r' lw lw' lb lb' : Fin 2048 → EReal} {dw dw' : Fin 64 → Fin 2048 → EReal} {db db' : Fin 64 → EReal}
    {uw uw' : Fin 2048 → Fin 64 → EReal} {ub ub' : Fin 2048 → EReal} {d d' : Fin 2048}
    (hr : ∀ k, r k = r' k) (hlw : ∀ k, lw k = lw' k) (hlb : ∀ k, lb k = lb' k) (hdw : ∀ a k, dw a k = dw' a k)
    (hdb : ∀ a, db a = db' a) (huw : ∀ d a, uw d a = uw' d a) (hub : ∀ d, ub d = ub' d) (hd : d = d') :
    adapter r lw lb dw db uw ub d = adapter r' lw' lb' dw' db' uw' ub' d' := by
  obtain rfl : r = r' := funext hr
  obtain rfl : lw = lw' := funext hlw
  obtain rfl : lb = lb' := funext hlb
  obtain rfl : dw = dw' := funext fun a => funext (hdw a)
  obtain rfl : db = db' := funext hdb
  obtain rfl : uw = uw' := funext fun d => funext (huw d)
  obtain rfl : ub = ub' := funext hub
  rw [hd]

/-- THE RESULT ARRAY both programs end with, as one function of the seven argument arrays: entry `(b, t, d)` is the
    result row of row `(b, t, ·)` of the first argument, at `d`. -/
def result (x : (⟨3, ![4, 4096, 2048]⟩ : Shape).Idx → EReal) (lw lb : (⟨1, ![2048]⟩ : Shape).Idx → EReal)
    (dw : (⟨2, ![64, 2048]⟩ : Shape).Idx → EReal) (db : (⟨1, ![64]⟩ : Shape).Idx → EReal)
    (uw : (⟨2, ![2048, 64]⟩ : Shape).Idx → EReal) (ub : (⟨1, ![2048]⟩ : Shape).Idx → EReal) :
    (⟨3, ![4, 4096, 2048]⟩ : Shape).Idx → EReal := fun i =>
  adapter (fun k => x (ix3 (i 0) (i 1) k)) (fun k => lw (ix1 k)) (fun k => lb (ix1 k)) (fun a k => dw (ix2 a k))
    (fun a => db (ix1 a)) (fun d a => uw (ix2 d a)) (fun d => ub (ix1 d)) (i 2)

end Cert.RowSpec

end
-- ==== Proof.RefRow.lean ====
/-
  The reference, read one row at a time.

  Every stage of the reference's run depends on its first argument only through the row `(b, t, ·)` the index lies
  in, so the stages collapse, in program order, to the row functions of the specification: the mean, the
  variance, the normalised and scaled row, the clipped hidden layer, and the result. The two host sums start
  from the zero literal, which is the extended real 0 and drops out; the two contractions are sums over the
  contracted coordinate as they stand.
-/
import proofs.«181501_j40355512714083_1_alg».proof.Proof.Gen.ReferenceIdeal.Read
import proofs.«181501_j40355512714083_1_alg».proof.Proof.RowSpec

noncomputable section

namespace Cert.ReferenceIdeal.RowValue

open Cert.ReferenceIdeal Cert.ReferenceIdeal.Read Cert.RowSpec Idealize.ShloMosaic Idealize.ShloMosaic.ValueIdx

local macro "coords3" : tactic =>
  `(tactic| (funext a; apply Fin.ext; match a with | ⟨0, _⟩ => rfl | ⟨1, _⟩ => rfl | ⟨2, _⟩ => rfl))
local macro "coords2" : tactic =>
  `(tactic| (funext a; apply Fin.ext; match a with | ⟨0, _⟩ => rfl | ⟨1, _⟩ => rfl))
local macro "coords1" : tactic =>
  `(tactic| (funext a; apply Fin.ext; match a with | ⟨0, _⟩ => rfl))

/-! ## The generated index maps at coordinates -/

theorem i0 (b : Fin 4) (t : Fin 4096) (k : Fin 2048) : idx_main_v0 (ix2 b t) k = ix3 b t k := by coords3
theorem i1 (b : Fin 4) (t : Fin 4096) (u : Fin 1) : idx_main_v1 (ix3 b t u) = ix2 b t := by coords2
theorem i4 (b : Fin 4) (t : Fin 4096) (k : Fin 2048) : idx_main_v4 (ix3 b t k) = ix3 b t (0 : Fin 1) := by coords3
theorem i7 (b : Fin 4) (t : Fin 4096) (k : Fin 2048) : idx_main_v7 (ix2 b t) k = ix3 b t k := by coords3
theorem i8 (b : Fin 4) (t : Fin 4096) (u : Fin 1) : idx_main_v8 (ix3 b t u) = ix2 b t := by coords2
theorem i11 (b : Fin 4) (t : Fin 4096) (k : Fin 2048) : idx_main_v11 (ix3 b t k) = ix3 b t (0 : Fin 1) := by coords3
theorem i16 (b : Fin 4) (t : Fin 4096) (k : Fin 2048) : idx_main_v16 (ix3 b t k) = ix3 b t (0 : Fin 1) := by coords3
theorem i18 (u v : Fin 1) (k : Fin 2048) : idx_main_v18 (ix3 u v k) = ix1 k := by coords1
theorem i19 (b : Fin 4) (t : Fin 4096) (k : Fin 2048) : idx_main_v19 (ix3 b t k) = ix3 (0 : Fin 1) (0 : Fin 1) k := by coords3
theorem i21 (u v : Fin 1) (k : Fin 2048) : idx_main_v21 (ix3 u v k) = ix1 k := by coords1
theorem i22 (b : Fin 4) (t : Fin 4096) (k : Fin 2048) : idx_main_v22 (ix3 b t k) = ix3 (0 : Fin 1) (0 : Fin 1) k := by coords3
theorem li24 (b : Fin 4) (t : Fin 4096) (a : Fin 64) (k : Fin 2048) : lidx_main_v24 (ix3 b t a) k = ix3 b t k := by coords3
theorem ri24 (b : Fin 4) (t : Fin 4096) (a : Fin 64) (k : Fin 2048) : ridx_main_v24 (ix3 b t a) k = ix2 a k := by coords2
theorem i25 (u v : Fin 1) (a : Fin 64) : idx_main_v25 (ix3 u v a) = ix1 a := by coords1
theorem i26 (b : Fin 4) (t : Fin 4096) (a : Fin 64) : idx_main_v26 (ix3 b t a) = ix3 (0 : Fin 1) (0 : Fin 1) a := by coords3
theorem li29 (b : Fin 4) (t : Fin 4096) (d : Fin 2048) (a : Fin 64) : lidx_main_v29 (ix3 b t d) a = ix3 b t a := by coords3
theorem ri29 (b : Fin 4) (t : Fin 4096) (d : Fin 2048) (a : Fin 64) : ridx_main_v29 (ix3 b t d) a = ix2 d a := by coords2
theorem i30 (u v : Fin 1) (d : Fin 2048) : idx_main_v30 (ix3 u v d) = ix1 d := by coords1
theorem i31 (b : Fin 4) (t : Fin 4096) (d : Fin 2048) : idx_main_v31 (ix3 b t d) = ix3 (0 : Fin 1) (0 : Fin 1) d := by coords3

/-! ## The stages, row by row -/

variable (x0 : (⟨S4x4096x2048, .f32⟩ : BufTy).Contents (Elt Ideal))
  (x1 x2 : (⟨S2048, .f32⟩ : BufTy).Contents (Elt Ideal))
  (x3 : (⟨S64x2048, .f32⟩ : BufTy).Contents (Elt Ideal))
  (x4 : (⟨S64, .f32⟩ : BufTy).Contents (Elt Ideal))
  (x5 : (⟨S2048x64, .f32⟩ : BufTy).Contents (Elt Ideal))
  (x6 : (⟨S2048, .f32⟩ : BufTy).Contents (Elt Ideal))

/-- Row `(b, t)` of the first argument. -/
abbrev row (b : Fin 4) (t : Fin 4096) : Fin 2048 → EReal := fun k => x0 (ix3 b t k)

/-- The quotient of the row sum by the width is the row's mean. -/
theorem mean_eq (b : Fin 4) (t : Fin 4096) (u : Fin 1) :
    val_main_v3 (F := Ideal) x0 (ix3 b t u) = mean (row x0 b t) := by
  simp only [val_main_v3_apply, val_main_v1_apply, val_main_v0_apply, val_main_v2_apply, val_main_cst_0_apply,
    val_main_cst_apply, i1, i0, Ideal.hostDivf_def, Ideal.ofBits_def, Ideal.ofBits_zero_f32, zero_add]
  rfl

/-- The quotient of the sum of squared deviations by the width is the row's variance. -/
theorem var_eq (b : Fin 4) (t : Fin 4096) (u : Fin 1) :
    val_main_v10 (F := Ideal) x0 (ix3 b t u) = var (row x0 b t) := by
  simp only [val_main_v10_apply, val_main_v8_apply, val_main_v7_apply, val_main_v9_apply, val_main_cst_2_apply,
    val_main_cst_1_apply, val_main_v6_apply, val_main_v5_apply, val_main_v4_apply, i8, i7, i4, mean_eq,
    Ideal.hostDivf_def, Ideal.mulf_def, Ideal.subf_def, Ideal.ofBits_def, Ideal.ofBits_zero_f32, zero_add]
  rfl

/-- The layer norm's output at `(b, t, k)`. -/
theorem normed_eq (b : Fin 4) (t : Fin 4096) (k : Fin 2048) :
    val_main_v23 (F := Ideal) x0 x1 x2 (ix3 b t k)
      = normed (row x0 b t) (fun k => x1 (ix1 k)) (fun k => x2 (ix1 k)) k := by
  simp only [val_main_v23_apply, val_main_v20_apply, val_main_v22_apply, val_main_v21_apply, val_main_v17_apply,
    val_main_v19_apply, val_main_v18_apply, val_main_v12_apply, val_main_v11_apply, val_main_v16_apply,
    val_main_v15_apply, val_main_v14_apply, val_main_v13_apply, val_main_cst_3_apply, i11, i16, i19, i18, i22, i21,
    mean_eq, var_eq, Ideal.addf_def, Ideal.mulf_def, Ideal.subf_def, Ideal.hostUnary_rsqrt_def, Ideal.ofBits_def]
  rfl

/-- The clipped hidden layer at `(b, t, a)`. -/
theorem hidden_eq (b : Fin 4) (t : Fin 4096) (a : Fin 64) :
    val_main_v28 (F := Ideal) x0 x1 x2 x3 x4 (ix3 b t a)
      = hidden (row x0 b t) (fun k => x1 (ix1 k)) (fun k => x2 (ix1 k)) (fun a k => x3 (ix2 a k)) (fun a => x4 (ix1 a)) a := by
  simp only [val_main_v28_apply, val_main_v27_apply, val_main_v24_apply, val_main_v26_apply, val_main_v25_apply,
    val_main_call0_v0_apply, val_main_call0_cst_apply, li24, ri24, i26, i25, normed_eq, Ideal.maximumf_def,
    Ideal.addf_def, Ideal.ofBits_def]
  rfl

/-- The reference's result at `(b, t, d)`. -/
theorem adapter_eq (b : Fin 4) (t : Fin 4096) (d : Fin 2048) :
    val_main_v33 (F := Ideal) x0 x1 x2 x3 x4 x5 x6 (ix3 b t d)
      = adapter (row x0 b t) (fun k => x1 (ix1 k)) (fun k => x2 (ix1 k)) (fun a k => x3 (ix2 a k)) (fun a => x4 (ix1 a))
          (fun d a => x5 (ix2 d a)) (fun d => x6 (ix1 d)) d := by
  simp only [val_main_v33_apply, val_main_v32_apply, val_main_v29_apply, val_main_v31_apply, val_main_v30_apply,
    li29, ri29, i31, i30, hidden_eq, Ideal.addf_def]
  rfl

/-- THE REFERENCE'S RESULT ARRAY is the specification's. -/
theorem result_eq : val_main_v33 (F := Ideal) x0 x1 x2 x3 x4 x5 x6 = result x0 x1 x2 x3 x4 x5 x6 := by
  funext i
  obtain ⟨b, t, d, rfl⟩ : ∃ (b : Fin 4) (t : Fin 4096) (d : Fin 2048), i = ix3 b t d := ⟨i 0, i 1, i 2, eq_ix3 i⟩
  exact adapter_eq x0 x1 x2 x3 x4 x5 x6 b t d

end Cert.ReferenceIdeal.RowValue

end
-- ==== Proof.KernelRow.lean ====
/-
  The kernel body, read one row at a time.

  The body loads a block of 512 rows and the six parameter blocks whole and stores one 512 × 2048 block. Its
  arithmetic is the specification's, row by row: a lane sum over the row is the row's sum, a column broadcast
  reads the row's own scalar, a row broadcast reads the parameter at the column, a change of float format is
  the identity, and a matrix product into the zero accumulator is the sum over the contracted coordinate. The
  stages are restated here as whole-block terms (the body's values unfold to them), and each is then read at a
  row and a column.
-/
import proofs.«181501_j40355512714083_1_alg».proof.Proof.Gen.KernelIdeal.Skeleton
import proofs.«181501_j40355512714083_1_alg».proof.Proof.RowSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RowValue

open Cert.KernelIdeal Cert.KernelIdeal.Gen Cert.RowSpec Idealize.ShloMosaic Idealize.ShloMosaic.ValueIdx

local macro "coords2" : tactic =>
  `(tactic| (funext a; apply Fin.ext; match a with | ⟨0, _⟩ => rfl | ⟨1, _⟩ => rfl))

/-! ## The layout operations of the body at a row and a column -/

/-- A lane sum over the rows of a block, viewed as a column, is at row `p` the sum of that row. -/
theorem rowSum_apply (v : FVec Ideal S512x2048 .f32) (p : Fin 512) (u : Fin 1) :
    shapeCast S512x1 (multiReduction .add [1] S512 v 0x00000000#32 reduces_S512x2048_S512 (.inl rfl) rfl) shapeCasts_S512_S512x1 (ix2 p u)
      = ∑ k : Fin 2048, v (ix2 p k) := by
  refine (shapeCast_apply _ shapeCasts_S512_S512x1 (ix2 p u) (ix1 p) ?_).trans ?_
  · rw [Shape.rowMajor_val_one, Shape.rowMajor_val_two]
    show p.val = p.val * 1 + u.val
    omega
  · refine (Ideal.multiReduction_add_single v 0x00000000#32 reduces_S512x2048_S512 (.inl rfl) rfl (ix1 p)).trans ?_
    exact Finset.sum_congr rfl fun k _ => congrArg v (by coords2)

/-- A column broadcast along the rows reads, at `(p, q)`, the column's entry for row `p`. -/
theorem colBroadcast_apply (col : FVec Ideal S512x1 .f32) (p : Fin 512) (q : Fin 2048) :
    broadcastTo S512x2048 col broadcasts_S512x1_S512x2048 (ix2 p q) = col (ix2 p (0 : Fin 1)) := by
  refine broadcastTo_apply col _ (ix2 p q) (ix2 p (0 : Fin 1)) fun ax => ?_
  match ax with
  | ⟨0, _⟩ => show p.val = if (512 : Nat) = 1 then 0 else p.val; rw [if_neg (by decide)]
  | ⟨1, _⟩ => show (0 : Nat) = if (1 : Nat) = 1 then 0 else q.val; rw [if_pos rfl]

/-! ## The two contractions -/

theorem down_lhs_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem down_lhs_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem down_rhs_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem down_rhs_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- The first product at `(p, a)`: the sum over the 2048 columns of row `p` of the left block times column `a` of the right. -/
theorem down_apply {φ₁ φ₂ : FTy} (l : FVec Ideal S512x2048 φ₁) (r : FVec Ideal S2048x64 φ₂) (p : Fin 512) (a : Fin 64) :
    matmul dot_S512x2048_S2048x64_S512x64_1_0_0_1_n_n none l r (constant S512x64 .f32 0x00000000#32) (ix2 p a)
      = ∑ k : Fin 2048, l (ix2 p k) * r (ix2 k a) := by
  refine (Ideal.matmul_constant_zero_apply dot_S512x2048_S2048x64_S512x64_1_0_0_1_n_n none l r (ix2 p a)).trans ?_
  rw [← Equiv.sum_comp (ValueIdx.contrEquiv1 dot_S512x2048_S2048x64_S512x64_1_0_0_1_n_n 2048 rfl rfl).symm]
  refine Finset.sum_congr rfl fun k _ => ?_
  have hk := ValueIdx.contrEquiv1_symm_val dot_S512x2048_S2048x64_S512x64_1_0_0_1_n_n 2048 rfl rfl k
  have el : dot_S512x2048_S2048x64_S512x64_1_0_0_1_n_n.lhsIdx (ix2 p a) ((ValueIdx.contrEquiv1 dot_S512x2048_S2048x64_S512x64_1_0_0_1_n_n 2048 rfl rfl).symm k) = ix2 p k := funext fun ax => Fin.ext (by
    match ax with
    | ⟨0, _⟩ => exact down_lhs_0 _ _
    | ⟨1, _⟩ => exact (down_lhs_1 _ _).trans hk)
  have er : dot_S512x2048_S2048x64_S512x64_1_0_0_1_n_n.rhsIdx (ix2 p a) ((ValueIdx.contrEquiv1 dot_S512x2048_S2048x64_S512x64_1_0_0_1_n_n 2048 rfl rfl).symm k) = ix2 k a := funext fun ax => Fin.ext (by
    match ax with
    | ⟨0, _⟩ => exact (down_rhs_0 _ _).trans hk
    | ⟨1, _⟩ => exact down_rhs_1 _ _)
  rw [el, er]

theorem up_lhs_0 (i : S512x2048.Idx) (q : dot_S512x64_S64x2048_S512x2048_1_0_0_1_n_n.contr.Idx) :
    (dot_S512x64_S64x2048_S512x2048_1_0_0_1_n_n.lhsIdx i q 0).val = (i 0).val := by
  unfold DotDims.lhsIdx
  rw [dif_neg (show ¬(0 : Fin S512x64.rank) ∈ dot_S512x64_S64x2048_S512x2048_1_0_0_1_n_n.lhsBatch by decide), dif_pos (show (0 : Fin S512x64.rank) ∈ dot_S512x64_S64x2048_S512x2048_1_0_0_1_n_n.lhsNonContracting by decide)]
  rfl
theorem up_lhs_1 (i : S512x2048.Idx) (q : dot_S512x64_S64x2048_S512x2048_1_0_0_1_n_n.contr.Idx) :
    (dot_S512x64_S64x2048_S512x2048_1_0_0_1_n_n.lhsIdx i q 1).val = (q ⟨0, by decide⟩).val :=
  dot_S512x64_S64x2048_S512x2048_1_0_0_1_n_n.lhsIdx_val_of_single rfl i q
theorem up_rhs_0 (i : S512x2048.Idx) (q : dot_S512x64_S64x2048_S512x2048_1_0_0_1_n_n.contr.Idx) :
    (dot_S512x64_S64x2048_S512x2048_1_0_0_1_n_n.rhsIdx i q 0).val = (q ⟨0, by decide⟩).val :=
  dot_S512x64_S64x2048_S512x2048_1_0_0_1_n_n.rhsIdx_val_of_single rfl i q
theorem up_rhs_1 (i : S512x2048.Idx) (q : dot_S512x64_S64x2048_S512x2048_1_0_0_1_n_n.contr.Idx) :
    (dot_S512x64_S64x2048_S512x2048_1_0_0_1_n_n.rhsIdx i q 1).val = (i 1).val := by
  unfold DotDims.rhsIdx
  rw [dif_neg (show ¬(1 : Fin S64x2048.rank) ∈ dot_S512x64_S64x2048_S512x2048_1_0_0_1_n_n.rhsBatch by decide), dif_pos (show (1 : Fin S64x2048.rank) ∈ dot_S512x64_S64x2048_S512x2048_1_0_0_1_n_n.rhsNonContracting by decide)]
  rfl

/-- The second product at `(p, d)`: the sum over the 64 hidden coordinates. -/
theorem up_apply {φ₁ φ₂ : FTy} (l : FVec Ideal S512x64 φ₁) (r : FVec Ideal S64x2048 φ₂) (p : Fin 512) (d : Fin 2048) :
    matmul dot_S512x64_S64x2048_S512x2048_1_0_0_1_n_n none l r (constant S512x2048 .f32 0x00000000#32) (ix2 p d)
      = ∑ a : Fin 64, l (ix2 p a) * r (ix2 a d) := by
  refine (Ideal.matmul_constant_zero_apply dot_S512x64_S64x2048_S512x2048_1_0_0_1_n_n none l r (ix2 p d)).trans ?_
  rw [← Equiv.sum_comp (ValueIdx.contrEquiv1 dot_S512x64_S64x2048_S512x2048_1_0_0_1_n_n 64 rfl rfl).symm]
  refine Finset.sum_congr rfl fun k _ => ?_
  have hk := ValueIdx.contrEquiv1_symm_val dot_S512x64_S64x2048_S512x2048_1_0_0_1_n_n 64 rfl rfl k
  have el : dot_S512x64_S64x2048_S512x2048_1_0_0_1_n_n.lhsIdx (ix2 p d) ((ValueIdx.contrEquiv1 dot_S512x64_S64x2048_S512x2048_1_0_0_1_n_n 64 rfl rfl).symm k) = ix2 p k := funext fun ax => Fin.ext (by
    match ax with
    | ⟨0, _⟩ => exact up_lhs_0 _ _
    | ⟨1, _⟩ => exact (up_lhs_1 _ _).trans hk)
  have er : dot_S512x64_S64x2048_S512x2048_1_0_0_1_n_n.rhsIdx (ix2 p d) ((ValueIdx.contrEquiv1 dot_S512x64_S64x2048_S512x2048_1_0_0_1_n_n 64 rfl rfl).symm k) = ix2 k d := funext fun ax => Fin.ext (by
    match ax with
    | ⟨0, _⟩ => exact (up_rhs_0 _ _).trans hk
    | ⟨1, _⟩ => exact up_rhs_1 _ _)
  rw [el, er]

/-! ## The body's stages as whole-block terms -/

variable (x : FVec Ideal S512x2048 .f32) (lw lb : FVec Ideal S1x2048 .f32) (dwt : FVec Ideal S2048x64 .bf16)
  (db : FVec Ideal S1x64 .f32) (uwt : FVec Ideal S64x2048 .bf16) (ub : FVec Ideal S1x2048 .f32)

/-- Row `p` of the loaded block. -/
abbrev blockRow (p : Fin 512) : Fin 2048 → EReal := fun k => x (ix2 p k)

/-- The column of row means. -/
def meanCol : FVec Ideal S512x1 .f32 :=
  divf (shapeCast S512x1 (multiReduction .add [1] S512 (k0_pay2 x) 0x00000000#32 reduces_S512x2048_S512 (.inl rfl) rfl) shapeCasts_S512_S512x1)
    (broadcast S512x1 (Scalar.ofBits .f32 0x45000000#32))

/-- The block with each row's mean taken off. -/
def centred : FVec Ideal S512x2048 .f32 :=
  subf (k0_pay2 x) (broadcastTo S512x2048 (meanCol x) broadcasts_S512x1_S512x2048)

/-- The column of reciprocal standard deviations. -/
def rstdCol : FVec Ideal S512x1 .f32 :=
  rsqrt (addf (divf (shapeCast S512x1 (multiReduction .add [1] S512 (mulf (centred x) (centred x)) 0x00000000#32 reduces_S512x2048_S512 (.inl rfl) rfl) shapeCasts_S512_S512x1)
      (broadcast S512x1 (Scalar.ofBits .f32 0x45000000#32)))
    (broadcast S512x1 (Scalar.ofBits .f32 0x3727C5AC#32)))

/-- The normalised, scaled and shifted block. -/
def normedBlock : FVec Ideal S512x2048 .f32 :=
  addf (mulf (mulf (centred x) (broadcastTo S512x2048 (rstdCol x) broadcasts_S512x1_S512x2048))
      (broadcastTo S512x2048 (shapeCast S1x2048 lw shapeCasts_S1x2048_S1x2048) broadcasts_S1x2048_S512x2048))
    (broadcastTo S512x2048 (shapeCast S1x2048 lb shapeCasts_S1x2048_S1x2048) broadcasts_S1x2048_S512x2048)

/-- The clipped hidden block. -/
def hiddenBlock : FVec Ideal S512x64 .f32 :=
  maximumf (addf (matmul dot_S512x2048_S2048x64_S512x64_1_0_0_1_n_n none (truncf .bf16 (normedBlock x lw lb) bitsLt_bf16_f32)
        (shapeCast S2048x64 dwt shapeCasts_S2048x64_S2048x64) (constant S512x64 .f32 0x00000000#32))
      (broadcastTo S512x64 (shapeCast S1x64 db shapeCasts_S1x64_S1x64) broadcasts_S1x64_S512x64))
    (broadcast S512x64 (Scalar.ofBits .f32 0x00000000#32))

/-- The block as loaded is the block the body works on: a shape cast to the same shape is the identity. -/
theorem pay2_eq : k0_pay2 x = x := shapeCast_self x _

/-- The body's hidden value (the first part's result) is the clipped hidden block in the narrow format. -/
theorem pay3_eq : k0_pay3 x lw lb dwt db = truncf .bf16 (hiddenBlock x lw lb dwt db) bitsLt_bf16_f32 := rfl

/-! ## The stages at a row and a column -/

theorem meanCol_apply (p : Fin 512) (u : Fin 1) : meanCol x (ix2 p u) = mean (blockRow x p) := by
  unfold meanCol
  refine (divf_apply _ _ _).trans ?_
  rw [rowSum_apply, pay2_eq]
  rfl

theorem centred_apply (p : Fin 512) (q : Fin 2048) : centred x (ix2 p q) = x (ix2 p q) - mean (blockRow x p) := by
  unfold centred
  refine (subf_apply _ _ _).trans ?_
  rw [colBroadcast_apply, meanCol_apply, pay2_eq]

theorem rstdCol_apply (p : Fin 512) (u : Fin 1) : rstdCol x (ix2 p u) = Ideal.rsqrt (var (blockRow x p) + eps) := by
  unfold rstdCol
  show Ideal.rsqrt (Ideal.div (shapeCast S512x1 (multiReduction .add [1] S512 (mulf (centred x) (centred x)) 0x00000000#32 reduces_S512x2048_S512 (.inl rfl) rfl) shapeCasts_S512_S512x1 (ix2 p u)) width + eps) = _
  rw [rowSum_apply]
  refine congrArg (fun s => Ideal.rsqrt (Ideal.div s width + eps)) (Finset.sum_congr rfl fun k _ => ?_)
  refine (mulf_apply _ _ _).trans ?_
  rw [centred_apply]

theorem normedBlock_apply (p : Fin 512) (q : Fin 2048) :
    normedBlock x lw lb (ix2 p q)
      = normed (blockRow x p) (fun k => lw (ix2 (0 : Fin 1) k)) (fun k => lb (ix2 (0 : Fin 1) k)) q := by
  have h : normedBlock x lw lb (ix2 p q)
      = (x (ix2 p q) - mean (blockRow x p)) * Ideal.rsqrt (var (blockRow x p) + eps) * lw (ix2 (0 : Fin 1) q)
          + lb (ix2 (0 : Fin 1) q) := by
    unfold normedBlock
    refine (addf_apply _ _ _).trans ?_
    rw [broadcastTo_1b_ab_apply, shapeCast_self lb]
    refine congrArg (· + lb (ix2 (0 : Fin 1) q)) ?_
    refine (mulf_apply _ _ _).trans ?_
    rw [broadcastTo_1b_ab_apply, shapeCast_self lw]
    refine congrArg (· * lw (ix2 (0 : Fin 1) q)) ?_
    refine (mulf_apply _ _ _).trans ?_
    rw [colBroadcast_apply, rstdCol_apply, centred_apply]
  exact h

theorem hiddenBlock_apply (p : Fin 512) (a : Fin 64) :
    hiddenBlock x lw lb dwt db (ix2 p a)
      = hidden (blockRow x p) (fun k => lw (ix2 (0 : Fin 1) k)) (fun k => lb (ix2 (0 : Fin 1) k))
          (fun a k => dwt (ix2 k a)) (fun a => db (ix2 (0 : Fin 1) a)) a := by
  have h : hiddenBlock x lw lb dwt db (ix2 p a)
      = max ((∑ k : Fin 2048, normed (blockRow x p) (fun k => lw (ix2 (0 : Fin 1) k)) (fun k => lb (ix2 (0 : Fin 1) k)) k * dwt (ix2 k a))
          + db (ix2 (0 : Fin 1) a)) floor0 := by
    unfold hiddenBlock
    refine (maximumf_apply _ _ _).trans ?_
    refine congrArg (max · floor0) ?_
    refine (addf_apply _ _ _).trans ?_
    rw [broadcastTo_1b_ab_apply, shapeCast_self db, down_apply]
    refine congrArg (· + db (ix2 (0 : Fin 1) a)) (Finset.sum_congr rfl fun k _ => ?_)
    rw [shapeCast_self dwt]
    refine congrArg (· * dwt (ix2 k a)) ?_
    exact (truncf_apply (ψ := .bf16) (normedBlock x lw lb) bitsLt_bf16_f32 (ix2 p k)).trans (normedBlock_apply x lw lb p k)
  exact h

/-- THE BODY'S STORED VALUE at row `p` and column `d` is the specification's result for row `p` of the loaded block. -/
theorem pay1_apply (p : Fin 512) (d : Fin 2048) :
    k0_pay1 (F := Ideal) (k0_pay2 x) (k0_pay3 x lw lb dwt db) (k0_pay4 uwt) (constant S512x2048 .f32 0x00000000#32) ub (ix2 p d)
      = adapter (blockRow x p) (fun k => lw (ix2 (0 : Fin 1) k)) (fun k => lb (ix2 (0 : Fin 1) k))
          (fun a k => dwt (ix2 k a)) (fun a => db (ix2 (0 : Fin 1) a)) (fun d a => uwt (ix2 a d))
          (fun d => ub (ix2 (0 : Fin 1) d)) d := by
  have h : k0_pay1 (F := Ideal) (k0_pay2 x) (k0_pay3 x lw lb dwt db) (k0_pay4 uwt) (constant S512x2048 .f32 0x00000000#32) ub (ix2 p d)
      = x (ix2 p d) + ((∑ a : Fin 64, hidden (blockRow x p) (fun k => lw (ix2 (0 : Fin 1) k)) (fun k => lb (ix2 (0 : Fin 1) k))
          (fun a k => dwt (ix2 k a)) (fun a => db (ix2 (0 : Fin 1) a)) a * uwt (ix2 a d)) + ub (ix2 (0 : Fin 1) d)) := by
    rw [pay3_eq]
    unfold k0_pay1
    refine (addf_apply _ _ _).trans ?_
    refine congrArg₂ (· + ·) (congrFun (pay2_eq x) (ix2 p d)) ?_
    refine (addf_apply _ _ _).trans ?_
    rw [broadcastTo_1b_ab_apply, shapeCast_self ub, up_apply]
    refine congrArg (· + ub (ix2 (0 : Fin 1) d)) (Finset.sum_congr rfl fun a _ => ?_)
    refine congrArg₂ (· * ·) ?_ (congrFun (shapeCast_self uwt shapeCasts_S64x2048_S64x2048) (ix2 a d))
    exact (truncf_apply (ψ := .bf16) (hiddenBlock x lw lb dwt db) bitsLt_bf16_f32 (ix2 p a)).trans (hiddenBlock_apply x lw lb dwt db p a)
  exact h

end Cert.KernelIdeal.RowValue

end
-- ==== Proof.KernelArray.lean ====
/-
  The kernel's result array.

  The region runs the body at 32 points; point `t` loads rows `512 t … 512 t + 511` of the reshaped first argument and
  the six parameter arrays whole, and writes the same rows of the output back. So every point writes its block of ONE
  function of the arrays the region finds, the blocks cover the output, and the output ends at that function. The
  arrays the region finds are the arguments re-laid by the host lines before it (a reshape of the rows, unit axes
  added, the two weight matrices transposed), and the line after it folds the 16384 rows back into 4 × 4096.
-/
import proofs.«181501_j40355512714083_1_alg».proof.Proof.Gen.KernelIdeal.Frame
import proofs.«181501_j40355512714083_1_alg».proof.Proof.KernelRow
import Idealize.ShloMosaic.Lib.Pipeline.Value
import Idealize.ShloMosaic.Lib.StableHlo.Run
import Idealize.ShloMosaic.Lib.ValueLayout

set_option maxRecDepth 16384

noncomputable section

namespace Cert.KernelIdeal.ArrayValue

open Cert.KernelIdeal Cert.KernelIdeal.Gen Cert.RowSpec Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The arrays the region finds -/

abbrev rows (c : Dev nD) : FVec Ideal S16384x2048 .f32 := V m c main_v0
abbrev scale (c : Dev nD) : FVec Ideal S1x2048 .f32 := V m c main_v1
abbrev shift (c : Dev nD) : FVec Ideal S1x2048 .f32 := V m c main_v2
abbrev downT (c : Dev nD) : FVec Ideal S2048x64 .bf16 := V m c main_v4
abbrev downB (c : Dev nD) : FVec Ideal S1x64 .f32 := V m c main_v5
abbrev upT (c : Dev nD) : FVec Ideal S64x2048 .bf16 := V m c main_v7
abbrev upB (c : Dev nD) : FVec Ideal S1x2048 .f32 := V m c main_v8

/-- Entry `(r, d)` of the output: the result row of row `r` of the reshaped first argument, at `d`. -/
def entry (c : Dev nD) (r : Fin 16384) (d : Fin 2048) : EReal :=
  adapter (fun k => rows m c (ix2 r k)) (fun k => scale m c (ix2 (0 : Fin 1) k)) (fun k => shift m c (ix2 (0 : Fin 1) k))
    (fun a k => downT m c (ix2 k a)) (fun a => downB m c (ix2 (0 : Fin 1) a)) (fun d a => upT m c (ix2 a d))
    (fun d => upB m c (ix2 (0 : Fin 1) d)) d

/-- The output array as one function of the arrays the region finds. -/
def whole (c : Dev nD) : FVec Ideal S16384x2048 .f32 := fun i => entry m c (i 0) (i 1)

/-! ## The printed index maps over the grid -/

theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## Each input block as entries of its array -/

theorem rows_blk (c : Dev nD) (t : Fin cfg0.N) (p : Fin 512) (k : Fin 2048) (r : Fin 16384) (hr : r.val = t.val * 512 + p.val) :
    (iblk m c 0 t : FVec Ideal S512x2048 .f32) (ix2 p k) = rows m c (ix2 r k) := by
  obtain ⟨e0, e1, -⟩ := idx_facts t
  show V m c main_v0 (((cfg0.win 0).blk t).view.emb (ix2 p k)) = V m c main_v0 (ix2 r k)
  refine congrArg (V m c main_v0) (funext fun a => Fin.ext ?_)
  match a with
  | ⟨0, _⟩ => show win0_0.index t (0 : Fin 2) * 512 + 1 * p.val = r.val; omega
  | ⟨1, _⟩ => show win0_0.index t (1 : Fin 2) * 2048 + 1 * k.val = k.val; omega

theorem scale_blk (c : Dev nD) (t : Fin cfg0.N) (u : Fin 1) (k : Fin 2048) :
    (iblk m c 1 t : FVec Ideal S1x2048 .f32) (ix2 u k) = scale m c (ix2 u k) := by
  obtain ⟨-, -, e0, e1, -⟩ := idx_facts t
  show V m c main_v1 (((cfg0.win 1).blk t).view.emb (ix2 u k)) = V m c main_v1 (ix2 u k)
  refine congrArg (V m c main_v1) (funext fun a => Fin.ext ?_)
  match a with
  | ⟨0, _⟩ => show win0_1.index t (0 : Fin 2) * 1 + 1 * u.val = u.val; omega
  | ⟨1, _⟩ => show win0_1.index t (1 : Fin 2) * 2048 + 1 * k.val = k.val; omega

theorem shift_blk (c : Dev nD) (t : Fin cfg0.N) (u : Fin 1) (k : Fin 2048) :
    (iblk m c 2 t : FVec Ideal S1x2048 .f32) (ix2 u k) = shift m c (ix2 u k) := by
  obtain ⟨-, -, -, -, e0, e1, -⟩ := idx_facts t
  show V m c main_v2 (((cfg0.win 2).blk t).view.emb (ix2 u k)) = V m c main_v2 (ix2 u k)
  refine congrArg (V m c main_v2) (funext fun a => Fin.ext ?_)
  match a with
  | ⟨0, _⟩ => show win0_2.index t (0 : Fin 2) * 1 + 1 * u.val = u.val; omega
  | ⟨1, _⟩ => show win0_2.index t (1 : Fin 2) * 2048 + 1 * k.val = k.val; omega

theorem downT_blk (c : Dev nD) (t : Fin cfg0.N) (k : Fin 2048) (a : Fin 64) :
    (iblk m c 3 t : FVec Ideal S2048x64 .bf16) (ix2 k a) = downT m c (ix2 k a) := by
  obtain ⟨-, -, -, -, -, -, e0, e1, -⟩ := idx_facts t
  show V m c main_v4 (((cfg0.win 3).blk t).view.emb (ix2 k a)) = V m c main_v4 (ix2 k a)
  refine congrArg (V m c main_v4) (funext fun ax => Fin.ext ?_)
  match ax with
  | ⟨0, _⟩ => show win0_3.index t (0 : Fin 2) * 2048 + 1 * k.val = k.val; omega
  | ⟨1, _⟩ => show win0_3.index t (1 : Fin 2) * 64 + 1 * a.val = a.val; omega

theorem downB_blk (c : Dev nD) (t : Fin cfg0.N) (u : Fin 1) (a : Fin 64) :
    (iblk m c 4 t : FVec Ideal S1x64 .f32) (ix2 u a) = downB m c (ix2 u a) := by
  obtain ⟨-, -, -, -, -, -, -, -, e0, e1, -⟩ := idx_facts t
  show V m c main_v5 (((cfg0.win 4).blk t).view.emb (ix2 u a)) = V m c main_v5 (ix2 u a)
  refine congrArg (V m c main_v5) (funext fun ax => Fin.ext ?_)
  match ax with
  | ⟨0, _⟩ => show win0_4.index t (0 : Fin 2) * 1 + 1 * u.val = u.val; omega
  | ⟨1, _⟩ => show win0_4.index t (1 : Fin 2) * 64 + 1 * a.val = a.val; omega

theorem upT_blk (c : Dev nD) (t : Fin cfg0.N) (a : Fin 64) (d : Fin 2048) :
    (iblk m c 5 t : FVec Ideal S64x2048 .bf16) (ix2 a d) = upT m c (ix2 a d) := by
  obtain ⟨-, -, -, -, -, -, -, -, -, -, e0, e1, -⟩ := idx_facts t
  show V m c main_v7 (((cfg0.win 5).blk t).view.emb (ix2 a d)) = V m c main_v7 (ix2 a d)
  refine congrArg (V m c main_v7) (funext fun ax => Fin.ext ?_)
  match ax with
  | ⟨0, _⟩ => show win0_5.index t (0 : Fin 2) * 64 + 1 * a.val = a.val; omega
  | ⟨1, _⟩ => show win0_5.index t (1 : Fin 2) * 2048 + 1 * d.val = d.val; omega

theorem upB_blk (c : Dev nD) (t : Fin cfg0.N) (u : Fin 1) (d : Fin 2048) :
    (iblk m c 6 t : FVec Ideal S1x2048 .f32) (ix2 u d) = upB m c (ix2 u d) := by
  obtain ⟨-, -, -, -, -, -, -, -, -, -, -, -, e0, e1, -⟩ := idx_facts t
  show V m c main_v8 (((cfg0.win 6).blk t).view.emb (ix2 u d)) = V m c main_v8 (ix2 u d)
  refine congrArg (V m c main_v8) (funext fun ax => Fin.ext ?_)
  match ax with
  | ⟨0, _⟩ => show win0_6.index t (0 : Fin 2) * 1 + 1 * u.val = u.val; omega
  | ⟨1, _⟩ => show win0_6.index t (1 : Fin 2) * 2048 + 1 * d.val = d.val; omega

/-! ## What a point writes back, the cover, the array -/

/-- WHAT POINT `t` WRITES BACK is block `t` of `whole`. -/
theorem flushed_eq (c : Dev nD) (t : Fin cfg0.N) :
    (dats m 0 c).flushed 7 t = ((cfg0.win 7).blk t).view.read (Elt Ideal) (whole m c) := by
  show (cfg0.win 7).cut (grid0.coords t) ((dats m 0 c).after 7 t) = _
  rw [after0_7]
  unfold out0_7
  rw [View.canon_unit_zero hz]
  simp only [View.ld_unit_zero (S := S512x2048) hz, View.ld_unit_zero (S := S1x2048) hz, View.ld_unit_zero (S := S2048x64) hz,
    View.ld_unit_zero (S := S1x64) hz, View.ld_unit_zero (S := S64x2048) hz]
  funext j
  obtain ⟨p, q, rfl⟩ : ∃ (p : Fin 512) (q : Fin 2048), j = ix2 p q := ⟨j 0, j 1, eq_ix2 j⟩
  show k0_pay1 (F := Ideal) (k0_pay2 (iblk m c 0 t)) (k0_pay3 (iblk m c 0 t) (iblk m c 1 t) (iblk m c 2 t) (iblk m c 3 t) (iblk m c 4 t))
      (k0_pay4 (iblk m c 5 t)) (constant S512x2048 .f32 0x00000000#32) (iblk m c 6 t) (ix2 p q)
    = whole m c (((cfg0.win 7).blk t).view.emb (ix2 p q))
  refine (RowValue.pay1_apply (iblk m c 0 t) (iblk m c 1 t) (iblk m c 2 t) (iblk m c 3 t) (iblk m c 4 t) (iblk m c 5 t)
    (iblk m c 6 t) p q).trans ?_
  obtain ⟨-, -, -, -, -, -, -, -, -, -, -, -, -, -, e0, e1⟩ := idx_facts t
  have hr : ((((cfg0.win 7).blk t).view.emb (ix2 p q)) 0 : Fin 16384).val = t.val * 512 + p.val := by
    show win0_7.index t (0 : Fin 2) * 512 + 1 * p.val = _
    omega
  have hq : ((((cfg0.win 7).blk t).view.emb (ix2 p q)) 1 : Fin 2048) = q :=
    Fin.ext (by show win0_7.index t (1 : Fin 2) * 2048 + 1 * q.val = q.val; omega)
  unfold whole entry
  exact adapter_congr (fun k => rows_blk m c t p k _ hr) (fun k => scale_blk m c t 0 k) (fun k => shift_blk m c t 0 k)
    (fun a k => downT_blk m c t k a) (fun a => downB_blk m c t 0 a) (fun d a => upT_blk m c t a d)
    (fun d => upB_blk m c t 0 d) hq.symm

/-- An index of the output is in point `t`'s block iff each coordinate is in the block's range on its axis. -/
theorem mem_blk (t : Fin cfg0.N) (i : S16384x2048.Idx) :
    i ∈ ((cfg0.win 7).blk t).view.set ↔ ∀ a : Fin 2, win0_7.index t a * S512x2048.size a ≤ (i a).val ∧ (i a).val < win0_7.index t a * S512x2048.size a + S512x2048.size a := by
  show i ∈ ((View.whole main_v9).slice (win0_7.rect t)).set ↔ _
  rw [View.set_slice_whole, Rect.mem_set_unit]
  exact Iff.rfl

/-- Row `r` of the output lies in the block of point `r / 512`. -/
theorem cover (i : S16384x2048.Idx) : ∃ t : Fin cfg0.N, (cfg0.win 7).flush t = true ∧ i ∈ ((cfg0.win 7).blk t).view.set := by
  have hi0 : (i 0).val < 16384 := (i 0).isLt
  have hi1 : (i 1).val < 2048 := (i 1).isLt
  have hN : cfg0.N = 32 := N_0
  have ht : (i 0).val / 512 < cfg0.N := by rw [hN]; omega
  refine ⟨⟨(i 0).val / 512, ht⟩, flush0_7 _, ?_⟩
  rw [mem_blk]
  obtain ⟨-, -, -, -, -, -, -, -, -, -, -, -, -, -, e0, e1⟩ := idx_facts ⟨(i 0).val / 512, ht⟩
  intro a
  match a with
  | ⟨0, _⟩ =>
    show win0_7.index ⟨(i 0).val / 512, ht⟩ (0 : Fin 2) * 512 ≤ (i 0).val ∧ (i 0).val < win0_7.index ⟨(i 0).val / 512, ht⟩ (0 : Fin 2) * 512 + 512
    rw [e0]
    show (i 0).val / 512 * 512 ≤ (i 0).val ∧ (i 0).val < (i 0).val / 512 * 512 + 512
    omega
  | ⟨1, _⟩ =>
    show win0_7.index ⟨(i 0).val / 512, ht⟩ (1 : Fin 2) * 2048 ≤ (i 1).val ∧ (i 1).val < win0_7.index ⟨(i 0).val / 512, ht⟩ (1 : Fin 2) * 2048 + 2048
    rw [e1]
    omega

/-- THE OUTPUT ARRAY after the region. -/
theorem final (c : Dev nD) : (dats m 0 c).arrAt 7 cfg0.N = whole m c :=
  (dats m 0 c).arrAt_eq_of_cover 7 (whole m c) (fun t _ => flushed_eq m c t) (cover)

/-! ## The host lines before the region -/

theorem rows_eq (c : Dev nD) :
    rows m c = shapeCast S16384x2048 (m ((c : Thread nD τ).loc main_arg0)) shapeCasts_S4x4096x2048_S16384x2048 := by
  show StableHlo.after hostOps0 (fun b => m (c, b)) (Proc.devRef .tc main_v0) = _
  after_results
  rfl

theorem scale_eq (c : Dev nD) :
    scale m c = shapeCast S1x2048 (m ((c : Thread nD τ).loc main_arg1)) shapeCasts_S2048_S1x2048 := by
  show StableHlo.after hostOps0 (fun b => m (c, b)) (Proc.devRef .tc main_v1) = _
  after_results
  rfl

theorem shift_eq (c : Dev nD) :
    shift m c = shapeCast S1x2048 (m ((c : Thread nD τ).loc main_arg2)) shapeCasts_S2048_S1x2048 := by
  show StableHlo.after hostOps0 (fun b => m (c, b)) (Proc.devRef .tc main_v2) = _
  after_results
  rfl

theorem downT_eq (c : Dev nD) :
    downT m c = truncf .bf16 (transpose S2048x64 [1, 0] (m ((c : Thread nD τ).loc main_arg3)) transposes_S64x2048_S2048x64_1_0) bitsLt_bf16_f32 := by
  show StableHlo.after hostOps0 (fun b => m (c, b)) (Proc.devRef .tc main_v4) = _
  after_results

theorem downB_eq (c : Dev nD) :
    downB m c = shapeCast S1x64 (m ((c : Thread nD τ).loc main_arg4)) shapeCasts_S64_S1x64 := by
  show StableHlo.after hostOps0 (fun b => m (c, b)) (Proc.devRef .tc main_v5) = _
  after_results
  rfl

theorem upT_eq (c : Dev nD) :
    upT m c = truncf .bf16 (transpose S64x2048 [1, 0] (m ((c : Thread nD τ).loc main_arg5)) transposes_S2048x64_S64x2048_1_0) bitsLt_bf16_f32 := by
  show StableHlo.after hostOps0 (fun b => m (c, b)) (Proc.devRef .tc main_v7) = _
  after_results

theorem upB_eq (c : Dev nD) :
    upB m c = shapeCast S1x2048 (m ((c : Thread nD τ).loc main_arg6)) shapeCasts_S2048_S1x2048 := by
  show StableHlo.after hostOps0 (fun b => m (c, b)) (Proc.devRef .tc main_v8) = _
  after_results
  rfl

/-- Row `b · 4096 + t` of the reshaped first argument is its row `(b, t, ·)`. -/
theorem rows_apply (c : Dev nD) (b : Fin 4) (t : Fin 4096) (k : Fin 2048) (r : Fin 16384) (hr : r.val = b.val * 4096 + t.val) :
    rows m c (ix2 r k) = (m ((c : Thread nD τ).loc main_arg0) : FVec Ideal S4x4096x2048 .f32) (ix3 b t k) := by
  rw [rows_eq]
  refine shapeCast_apply _ _ (ix2 r k) (ix3 b t k) ?_
  rw [Shape.rowMajor_val_three, Shape.rowMajor_val_two]
  show (b.val * 4096 + t.val) * 2048 + k.val = r.val * 2048 + k.val
  rw [hr]

theorem scale_apply (c : Dev nD) (u : Fin 1) (k : Fin 2048) :
    scale m c (ix2 u k) = (m ((c : Thread nD τ).loc main_arg1) : FVec Ideal S2048 .f32) (ix1 k) := by
  rw [scale_eq]; exact shapeCast_a_1a_apply _ _ u k

theorem shift_apply (c : Dev nD) (u : Fin 1) (k : Fin 2048) :
    shift m c (ix2 u k) = (m ((c : Thread nD τ).loc main_arg2) : FVec Ideal S2048 .f32) (ix1 k) := by
  rw [shift_eq]; exact shapeCast_a_1a_apply _ _ u k

theorem downT_apply (c : Dev nD) (k : Fin 2048) (a : Fin 64) :
    downT m c (ix2 k a) = (m ((c : Thread nD τ).loc main_arg3) : FVec Ideal S64x2048 .f32) (ix2 a k) := by
  rw [downT_eq]
  show transpose S2048x64 [1, 0] (m ((c : Thread nD τ).loc main_arg3)) transposes_S64x2048_S2048x64_1_0 (ix2 k a) = _
  exact transpose_ix2_apply _ _ k a

theorem downB_apply (c : Dev nD) (u : Fin 1) (a : Fin 64) :
    downB m c (ix2 u a) = (m ((c : Thread nD τ).loc main_arg4) : FVec Ideal S64 .f32) (ix1 a) := by
  rw [downB_eq]; exact shapeCast_a_1a_apply _ _ u a

theorem upT_apply (c : Dev nD) (a : Fin 64) (d : Fin 2048) :
    upT m c (ix2 a d) = (m ((c : Thread nD τ).loc main_arg5) : FVec Ideal S2048x64 .f32) (ix2 d a) := by
  rw [upT_eq]
  show transpose S64x2048 [1, 0] (m ((c : Thread nD τ).loc main_arg5)) transposes_S2048x64_S64x2048_1_0 (ix2 a d) = _
  exact transpose_ix2_apply _ _ a d

theorem upB_apply (c : Dev nD) (u : Fin 1) (d : Fin 2048) :
    upB m c (ix2 u d) = (m ((c : Thread nD τ).loc main_arg6) : FVec Ideal S2048 .f32) (ix1 d) := by
  rw [upB_eq]; exact shapeCast_a_1a_apply _ _ u d

/-! ## The host line after the region, and the result -/

/-- The result buffer is the output array with its 16384 rows folded into 4 × 4096. -/
theorem tail_eq (c : Dev nD) :
    Pipeline.afterTail₀ cfgs (dats m) 0 (V0 m) [hostOps1] c main_v10
      = shapeCast S4x4096x2048 (whole m c) shapeCasts_S16384x2048_S4x4096x2048 := by
  unfold Pipeline.afterTail₀
  show StableHlo.after hostOps1 _ (Proc.devRef .tc main_v10) = _
  after_results
  have hw := (Pipeline.withArrays_arr spec0 launch0.win.arr_inj c (V0 m c) (fun w => (dats m 0 c).arrAt w (cfgs 0).N) 7).trans (final m c)
  exact congrArg (fun A : FVec Ideal S16384x2048 .f32 => shapeCast S4x4096x2048 A shapeCasts_S16384x2048_S4x4096x2048) hw

/-- THE RESULT BUFFER after the run is the specification's result of the argument arrays. -/
theorem result_eq (c : Dev nD) :
    Pipeline.afterTail₀ cfgs (dats m) 0 (V0 m) [hostOps1] c main_v10
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  rw [tail_eq]
  funext i
  obtain ⟨b, t, d, rfl⟩ : ∃ (b : Fin 4) (t : Fin 4096) (d : Fin 2048), i = ix3 b t d := ⟨i 0, i 1, i 2, eq_ix3 i⟩
  have hlt : b.val * 4096 + t.val < 16384 := by omega
  refine (shapeCast_apply _ _ (ix3 b t d) (ix2 (⟨b.val * 4096 + t.val, hlt⟩ : Fin 16384) d) ?_).trans ?_
  · rw [Shape.rowMajor_val_two, Shape.rowMajor_val_three]
    rfl
  · show entry m c ⟨b.val * 4096 + t.val, hlt⟩ d = _
    unfold entry result
    exact adapter_congr (fun k => rows_apply m c b t k _ rfl) (fun k => scale_apply m c 0 k) (fun k => shift_apply m c 0 k)
      (fun a k => downT_apply m c k a) (fun a => downB_apply m c 0 a) (fun d a => upT_apply m c a d)
      (fun d => upB_apply m c 0 d) rfl

/-- THE KERNEL'S RUN, READ: every weakly fair execution terminates with the result buffer at the specification's result
    of the argument arrays, and the arguments as launched. -/
theorem run : θ_run defs (onTc (τ := τ) (main (F := Ideal))) ⟨m, fun _ => 0, ρ⟩ fun r => ∀ c : Dev nD,
      r.2.mem ((c : Thread nD τ).loc main_v10)
        = result (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c =>
    ⟨((h c).2 main_v10 (Pipeline.mem_restRefs_of main_v10 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.ArrayValue

end
-- ==== Proof.lean ====
/-
  A layer-normalised adapter with a residual: every row of the [4, 4096, 2048] input is normalised (mean and variance
  over its 2048 entries, the variance shifted by a literal before the reciprocal square root), scaled and shifted, sent
  through a 2048 → 64 affine map, clipped below at zero, sent back through a 64 → 2048 affine map, and added to the row.

  The kernel does this on 32 blocks of 512 rows of the input reshaped to [16384, 2048], with the two weight matrices
  transposed and narrowed by the host beforehand, the products taken in the narrow format into a zero accumulator, and
  the rows folded back afterwards; the reference does it on the whole array with two contractions. On the extended reals a
  change of float format is the identity, a lane sum and a host sum are the same finite sum (the host's starts from the
  zero literal, which is 0), and a matrix product into zero is the sum over the contracted coordinate, so both programs
  end with ONE function of the seven argument arrays (`Cert.RowSpec.result`): the kernel by reading what each grid point
  writes back as a block of that function and covering the output with the blocks (Proof/KernelRow.lean,
  Proof/KernelArray.lean), the reference by reading its stages row by row (Proof/RefRow.lean). No law beyond the
  reassociation built into finite sums is used, so the precondition is never opened. Nothing was rewritten for the
  idealization, so that claim is trivially true.
-/
import proofs.«181501_j40355512714083_1_alg».proof.Defs
import proofs.«181501_j40355512714083_1_alg».proof.Proof.Gen.Kernel
import proofs.«181501_j40355512714083_1_alg».proof.Proof.Gen.Kernel.Skeleton
import proofs.«181501_j40355512714083_1_alg».proof.Proof.Gen.Kernel.Launch
import proofs.«181501_j40355512714083_1_alg».proof.Proof.Gen.Kernel.Points
import proofs.«181501_j40355512714083_1_alg».proof.Proof.Gen.Kernel.Frame
import proofs.«181501_j40355512714083_1_alg».proof.Proof.Gen.KernelIdeal
import proofs.«181501_j40355512714083_1_alg».proof.Proof.Gen.KernelIdeal.Skeleton
import proofs.«181501_j40355512714083_1_alg».proof.Proof.Gen.KernelIdeal.Launch
import proofs.«181501_j40355512714083_1_alg».proof.Proof.Gen.KernelIdeal.Points
import proofs.«181501_j40355512714083_1_alg».proof.Proof.Gen.KernelIdeal.Frame
import proofs.«181501_j40355512714083_1_alg».proof.Proof.Gen.ReferenceIdeal
import proofs.«181501_j40355512714083_1_alg».proof.Proof.Gen.Pre_finite_inputs
import proofs.«181501_j40355512714083_1_alg».proof.Proof.Gen.ReferenceIdeal.Run
import proofs.«181501_j40355512714083_1_alg».proof.Proof.Gen.ReferenceIdeal.Read
import proofs.«181501_j40355512714083_1_alg».proof.Proof.RefRow
import proofs.«181501_j40355512714083_1_alg».proof.Proof.KernelArray
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten for the idealization. -/
theorem preserves : Cert.preserves_Kernel_KernelIdeal := trivial

/-- From memories agreeing on the arguments both programs end with the specification's result of those arguments. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.ReferenceIdeal.RowValue.result_eq, (hagree c).1, (hagree c).2.1,
    (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
